-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S8x50257 : Shape := ⟨2, ![8, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S8x50257 : S_.BroadcastsInDim S8x50257 (![] : Fin 0 → Fin S8x50257.rank)
  reducesTo_S8x50257_S_d0_1 : S8x50257.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : FVec F S8x50257 .f32) (main_arg2 : IVec S4096 32) (main_arg3 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_v4 : FVec F S8x50257 .f32 := Host.absf main_arg1
  let main_cst_0 : FVec F S_ .f32 := constant S_ .f32 0x7F800000#32
  let main_v5 : FVec F S8x50257 .f32 := broadcastInDim S8x50257 ![] bcast_S_S8x50257 main_cst_0
  let main_v6 : IVec S8x50257 1 := cmpf .olt main_v4 main_v5
  let main_c_1 : IVec S_ 1 := constantI S_ 1 1#1
  let main_v7 : IVec S_ 1 := (fun x v => Host.reduce IntOp.andi x v reducesTo_S8x50257_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 50257#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x50257 : Shape := ⟨2, ![4096, 50257]⟩
abbrev S8x50257 : Shape := ⟨2, ![8, 50257]⟩
abbrev S4096 : Shape := ⟨1, ![4096]⟩
abbrev S4096x1 : Shape := ⟨2, ![4096, 1]⟩
abbrev S50257 : Shape := ⟨1, ![50257]⟩
abbrev S1x50257 : Shape := ⟨2, ![1, 50257]⟩
abbrev S32x50257 : Shape := ⟨2, ![32, 50257]⟩
abbrev S32x1 : Shape := ⟨2, ![32, 1]⟩
abbrev S32 : Shape := ⟨1, ![32]⟩
abbrev S_ : Shape := ⟨0, ![]⟩
abbrev S4096x2 : Shape := ⟨2, ![4096, 2]⟩

abbrev nBuf : Space → Nat
  | .hbm => 32
  | .vmem => 7
  | .smem => 0
  | _ => 0

abbrev bufTy : (tb : Table) → Fin (tcTables nBuf tb) → BufTy
  | .hbm, ⟨0, _⟩ => ⟨S4096x50257, .f32⟩
  | .hbm, ⟨1, _⟩ => ⟨S8x50257, .f32⟩
  | .hbm, ⟨2, _⟩ => ⟨S4096, .i32⟩
  | .hbm, ⟨3, _⟩ => ⟨S4096, .i32⟩
  | .hbm, ⟨4, _⟩ => ⟨S4096x1, .i32⟩
  | .hbm, ⟨5, _⟩ => ⟨S50257, .i32⟩
  | .hbm, ⟨6, _⟩ => ⟨S1x50257, .i32⟩
  | .hbm, ⟨7, _⟩ => ⟨S4096x1, .f32⟩
  | .hbm, ⟨8, _⟩ => ⟨S4096, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1, .i32⟩
  | .hbm, ⟨25, _⟩ => ⟨S4096x2, .i32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S32x50257, .f32⟩
  | .local _ .vmem, ⟨1, _⟩ => ⟨S32x50257, .f32⟩
  | .local _ .vmem, ⟨2, _⟩ => ⟨S32x1, .i32⟩
  | .local _ .vmem, ⟨3, _⟩ => ⟨S32x1, .i32⟩
  | .local _ .vmem, ⟨4, _⟩ => ⟨S1x50257, .i32⟩
  | .local _ .vmem, ⟨5, _⟩ => ⟨S32x1, .f32⟩
  | .local _ .vmem, ⟨6, _⟩ => ⟨S32x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x50257 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S4096x1 : S4096.ShapeCasts S4096x1
  shapeCasts_S50257_S1x50257 : S50257.ShapeCasts S1x50257
  inb_S32x50257_S32x50257_0_0 : ∀ a, (![0, 0] : Fin 2 → Nat) a + S32x50257.size a ≤ S32x50257.size a
  h_S32x50257 : 0 < S32x50257.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x50257_S1x50257_0_0 : ∀ a, (![0, 0] : Fin 2 → Nat) a + S1x50257.size a ≤ S1x50257.size a
  h_S1x50257 : 0 < S1x50257.numel
  shapeCasts_S1x50257_S1x50257 : S1x50257.ShapeCasts S1x50257
  reduces_S32x50257_S32 : S32x50257.Reduces [1] S32
  shapeCasts_S32_S32x1 : S32.ShapeCasts S32x1
  broadcasts_S32x1_S32x50257 : S32x1.Broadcasts S32x50257
  broadcasts_S1x50257_S32x50257 : S1x50257.Broadcasts S32x50257
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096_S_d0 : S4096.ReducesTo [0] S_
  h_S_ : 0 < S_.numel
  gather_S8x50257_S4096x2_S4096_n_01_n_n_01_1_11_wf : GatherDims.WF S8x50257 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S4096x50257.size a
  hwx0_0 : ∀ i : grid0.Coords, EltTy.bits .f32 = 32 ∨ (Rect.block (s := S4096x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .i32 = 32 ∨ (Rect.block (s := S4096x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50257.size a ≤ S1x50257.size a
  hwx0_2 : ∀ i : grid0.Coords, EltTy.bits .i32 = 32 ∨ (Rect.block (s := S1x50257) S1x50257.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S4096x1.size a
  hwx0_3 : ∀ i : grid0.Coords, EltTy.bits .f32 = 32 ∨ (Rect.block (s := S4096x1) S32x1.size (cc0_transform_3 i) (hinb0_3 i)).WholeWords (EltTy.packing .f32)

variable [Facts₀]

def gather_S8x50257_S4096x2_S4096_n_01_n_n_01_1_11 : GatherDims S8x50257 S4096x2 S4096 where
  offsetDims := []
  collapsedSliceDims := [0, 1]
  operandBatchingDims := []
  startIndicesBatchingDims := []
  startIndexMap := [0, 1]
  indexVectorDim := 1
  sliceSizes := ![1, 1]
  wf := gather_S8x50257_S4096x2_S4096_n_01_n_n_01_1_11_wf

abbrev win0_0 : Pipeline.Window sig grid0 :=
  Pipeline.Window.ofSpec (Memref.whole main_arg0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x50257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x50257 : Shape := ⟨2, ![4096, 50257]⟩
abbrev S8x50257 : Shape := ⟨2, ![8, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x2 : Shape := ⟨2, ![4096, 2]⟩

abbrev nBuf : Space → Nat
  | .hbm => 67
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S8x50257, .f32⟩
  | .hbm, ⟨2, _⟩ => ⟨S4096, .i32⟩
  | .hbm, ⟨3, _⟩ => ⟨S4096, .i32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x50257, .f32⟩
  | .hbm, ⟨11, _⟩ => ⟨S4096x50257, .f32⟩
  | .hbm, ⟨12, _⟩ => ⟨S4096x50257, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x50257, .f32⟩
  | .hbm, ⟨18, _⟩ => ⟨S4096x50257, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S4096, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x1, .i32⟩
  | .hbm, ⟨60, _⟩ => ⟨S4096x2, .i32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_v5 : Ref sig .tc := ⟨.hbm, 45, rfl⟩
abbrev main_v6 : Ref sig .tc := ⟨.hbm, 46, rfl⟩
abbrev main_c_0 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_c_1 : Ref sig .tc := ⟨.hbm, 51, rfl⟩
abbrev main_v10 : Ref sig .tc := ⟨.hbm, 52, rfl⟩
abbrev main_v11 : Ref sig .tc := ⟨.hbm, 53, rfl⟩
abbrev main_c_2 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst : Ref sig .tc := ⟨.hbm, 63, rfl⟩
abbrev main_v20 : Ref sig .tc := ⟨.hbm, 64, rfl⟩
abbrev main_cst_3 : Ref sig .tc := ⟨.hbm, 65, rfl⟩
abbrev main_v21 : Ref sig .tc := ⟨.hbm, 66, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  concatenates_S4096x1_S4096x1_S4096x2_d1 : Shape.Concatenates [S4096x1, S4096x1] S4096x2 1
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]
  gather_S8x50257_S4096x2_S4096_n_01_n_n_01_1_11_wf : GatherDims.WF S8x50257 S4096x2 S4096 [] [0, 1] [] [0, 1] [] 1 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf
def gather_S8x50257_S4096x2_S4096_n_01_n_n_01_1_11 : GatherDims S8x50257 S4096x2 S4096 where
  offsetDims := []
  collapsedSliceDims := [0, 1]
  operandBatchingDims := []
  startIndicesBatchingDims := []
  startIndexMap := [0, 1]
  indexVectorDim := 1
  sliceSizes := ![1, 1]
  wf := gather_S8x50257_S4096x2_S4096_n_01_n_n_01_1_11_wf

class Facts : Prop extends Facts₀ where

variable [Facts]
-- ==== Proof.RefAfter.lean ====
/-
  The reference's result, evaluated in two halves.

  The reference's 63 operations fall into two stretches. The first 40 compute the loss vector from the logits and the
  labels (the log-softmax, the take at the label, the negation) and touch no argument. The last 23 are the weighted
  mean: they read the weight table, the labels, the attributes and the loss vector, and nothing else of the first
  stretch. So the result after all 63 is the last stretch's function of the arguments and of what the first stretch
  left in the loss vector's buffer, and that is the stage `val_main_v21` of the arguments.
-/
import proofs.«430237_j7782480740624_3_alg».proof.Proof.RefRead
import Idealize.ShloMosaic.Lib.StableHlo.Run
import Idealize.ShloMosaic.Lib.Pipeline.Frame

set_option maxRecDepth 16384

noncomputable section

namespace Cert.ReferenceIdeal.AfterValue

open Cert.ReferenceIdeal Cert.ReferenceIdeal.Gen Idealize.ShloMosaic Idealize.ShloMosaic.TcCoe Idealize.SL.Sem
open Idealize.ShloMosaic.StableHlo
open Cert.ReferenceIdeal.Value (ops)
open Cert.ReferenceIdeal.Read

variable {F : FTy → Type} [FloatOps F]

set_option maxHeartbeats 4000000 in
/-- The first stretch leaves the loss vector's stage in its buffer. The two called functions' operations carry their
    operands through transports along type equalities that are identities: these are removed from the list of
    operations, one small operation at a time, before the list is folded. -/
theorem lossVec_after (V : Valuation τ sig (Elt F)) :
    StableHlo.after ((ops (F := F)).take 40) V (Proc.devRef .tc main_v4)
      = val_main_v4 (F := F) (V (Proc.devRef .tc main_arg0)) (V (Proc.devRef .tc main_arg2)) := by
  simp only [ops, List.take]
  simp only [TRef.nullary, TRef.unary, TRef.binary, TRef.ternary, TRef.reshape, TRef.toBuf, TRef.ofBuf, cast_eq]
  after_results_simp
  rfl

set_option maxHeartbeats 4000000 in
/-- The first stretch writes none of the three arguments the last stretch reads. -/
theorem arg1_after (V : Valuation τ sig (Elt F)) :
    StableHlo.after ((ops (F := F)).take 40) V (Proc.devRef .tc main_arg1) = V (Proc.devRef .tc main_arg1) := by
  simp only [ops, List.take]
  after_results_simp <;> rfl

set_option maxHeartbeats 4000000 in
theorem arg2_after (V : Valuation τ sig (Elt F)) :
    StableHlo.after ((ops (F := F)).take 40) V (Proc.devRef .tc main_arg2) = V (Proc.devRef .tc main_arg2) := by
  simp only [ops, List.take]
  after_results_simp <;> rfl

set_option maxHeartbeats 4000000 in
theorem arg3_after (V : Valuation τ sig (Elt F)) :
    StableHlo.after ((ops (F := F)).take 40) V (Proc.devRef .tc main_arg3) = V (Proc.devRef .tc main_arg3) := by
  simp only [ops, List.take]
  after_results_simp <;> rfl

set_option maxHeartbeats 4000000 in
/-- The last stretch: the weighted mean of what it finds in the weight table, the labels, the attributes and the loss
    vector's buffer. -/
theorem mean_after (W : Valuation τ sig (Elt F)) :
    StableHlo.after ((ops (F := F)).drop 40) W (Proc.devRef .tc main_v21)
      = Host.divf
          (Host.reduceAdd
            (mulf
              (Host.gather gather_S8x50257_S4096x2_S4096_n_01_n_n_01_1_11 (W (Proc.devRef .tc main_arg1))
                (concatenate S4096x2 1
                  [⟨S4096x1, broadcastInDim S4096x1 ![0] bcast_S4096_S4096x1_0
                      (select (cmpi .slt (W (Proc.devRef .tc main_arg3)) (broadcastInDim S4096 ![] bcast_S_S4096 (constantI S_ 32 0#32)))
                        (addi (W (Proc.devRef .tc main_arg3)) (broadcastInDim S4096 ![] bcast_S_S4096 (constantI S_ 32 8#32)))
                        (W (Proc.devRef .tc main_arg3)))⟩,
                   ⟨S4096x1, broadcastInDim S4096x1 ![0] bcast_S4096_S4096x1_0
                      (select (cmpi .slt (W (Proc.devRef .tc main_arg2)) (broadcastInDim S4096 ![] bcast_S_S4096 (constantI S_ 32 0#32)))
                        (addi (W (Proc.devRef .tc main_arg2)) (broadcastInDim S4096 ![] bcast_S_S4096 (constantI S_ 32 50257#32)))
                        (W (Proc.devRef .tc main_arg2)))⟩]
                  concatenates_S4096x1_S4096x1_S4096x2_d1))
              (W (Proc.devRef .tc main_v4)))
            (constant S_ .f32 0x00000000#32) reducesTo_S4096_S_d0 h_S_)
          (constant S_ .f32 0x45800000#32) := by
  simp only [ops, List.drop]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))

/-- THE REFERENCE'S RESULT after all its operations is the result stage of the arguments. -/
theorem result_after (V : Valuation τ sig (Elt F)) :
    StableHlo.after (ops (F := F)) V (Proc.devRef .tc main_v21)
      = val_main_v21 (F := F) (V (Proc.devRef .tc main_arg0)) (V (Proc.devRef .tc main_arg1))
          (V (Proc.devRef .tc main_arg2)) (V (Proc.devRef .tc main_arg3)) := by
  have hs : (ops : List (HloOp τ sig (Elt F))) = (ops (F := F)).take 40 ++ (ops (F := F)).drop 40 :=
    (List.take_append_drop 40 _).symm
  rw [hs, StableHlo.after_append, mean_after, lossVec_after, arg1_after, arg2_after, arg3_after]
  rfl

end Cert.ReferenceIdeal.AfterValue

end
-- ==== Proof.Spec.lean ====
/-
  The per-row loss, as mathematics over one row `x : Fin 50257 → EReal` of logits and one label.

  Both programs first shift the row by its maximum `M = max_k x k` and form `S = ∑_k exp (x k - M)`.
  The kernel then picks the shifted label logit out of the row by a mask,
      log S - ∑_k (if k = label then x k - M else 0),
  while the reference forms the log-softmax row `(x k - M) - log S`, takes its entry at the label and negates it,
      -((x label - M) - log S).
  For a label in range the masked sum has exactly one non-zero term, so it is `x label - M`; and for finite logits
  that difference is a real number, so negating `(x label - M) - log S` swaps the two terms even when `log S`
  were infinite. This file states the two forms and proves them equal under those two conditions.
-/
import Idealize.ShloMosaic.PureOps.Ideal
import Idealize.ShloMosaic.PureOps.Ideal.Laws
import Mathlib.Data.Finset.Fold
import Mathlib.Data.EReal.Operations

noncomputable section

namespace Cert.NllSpec

open Idealize.ShloMosaic

/-- The f32 pattern of `-∞` is the bottom extended real. -/
theorem negInf_eq_bot : Ideal.ofBits .f32 0xFF800000#32 = (⊥ : EReal) := by
  simp [Ideal.ofBits, Ideal.ieee]

/-- The maximum of a row, folded from `-∞`. -/
def rowMax (x : Fin 50257 → EReal) : EReal :=
  (Finset.univ : Finset (Fin 50257)).fold max (Ideal.ofBits .f32 0xFF800000#32) x

/-- The sum of the exponentials of the row shifted by its maximum. -/
def sumExp (x : Fin 50257 → EReal) : EReal := ∑ k : Fin 50257, Ideal.exp (x k - rowMax x)

/-- The kernel's form: the log of the sum, less the shifted row summed under the mask "column = label". -/
def nllMasked (x : Fin 50257 → EReal) (l : BitVec 32) : EReal :=
  Ideal.log (sumExp x)
    - ∑ k : Fin 50257, (if BitVec.ofNat 32 k.val = l then x k - rowMax x else Ideal.ofBits .f32 0x00000000#32)

/-- The reference's form: the log-softmax row's entry at column `k`, negated. -/
def nllTaken (x : Fin 50257 → EReal) (k : Fin 50257) : EReal :=
  -((x k - rowMax x) - Ideal.log (sumExp x))

/-- The row maximum dominates its starting value, whatever that is. -/
theorem init_le_rowMax (x : Fin 50257 → EReal) : Ideal.ofBits .f32 0xFF800000#32 ≤ rowMax x :=
  (Finset.le_fold_max _).2 (Or.inl le_rfl)

/-- A row of real numbers has a real maximum: it is below `⊤` because every entry and `-∞` are, and above `⊥`
    because entry 0 is. -/
theorem rowMax_real (x : Fin 50257 → EReal) (hx : ∀ k, ∃ r : ℝ, x k = (r : EReal)) :
    ∃ M : ℝ, rowMax x = (M : EReal) := by
  have hlt : rowMax x < ⊤ := by
    unfold rowMax
    refine (Finset.fold_max_lt _).2 ⟨by rw [negInf_eq_bot]; exact bot_lt_top, fun k _ => ?_⟩
    obtain ⟨r, hr⟩ := hx k
    rw [hr]; exact EReal.coe_lt_top r
  have hgt : ⊥ < rowMax x := by
    unfold rowMax
    refine (Finset.lt_fold_max _).2 (Or.inr ⟨⟨0, by decide⟩, Finset.mem_univ _, ?_⟩)
    obtain ⟨r, hr⟩ := hx ⟨0, by decide⟩
    rw [hr]; exact EReal.bot_lt_coe r
  exact ⟨(rowMax x).toReal, (EReal.coe_toReal hlt.ne hgt.ne').symm⟩

/-- Under the mask "column = label" with the label a column number, only that column's term survives. -/
theorem masked_sum (a : Fin 50257 → EReal) (k : Fin 50257) :
    (∑ j : Fin 50257, (if BitVec.ofNat 32 j.val = BitVec.ofNat 32 k.val then a j else Ideal.ofBits .f32 0x00000000#32))
      = a k := by
  rw [Finset.sum_eq_single k]
  · rw [if_pos rfl]
  · intro j _ hjk
    rw [if_neg, Ideal.ofBits_zero_f32]
    intro h
    apply hjk
    apply Fin.ext
    have h1 := congrArg BitVec.toNat h
    simp only [BitVec.toNat_ofNat] at h1
    have hj := j.isLt
    have hk := k.isLt
    omega
  · intro h; exact absurd (Finset.mem_univ k) h

/-- The two forms agree on a row of real numbers when the label is the column number `k`. -/
theorem nllMasked_eq_nllTaken (x : Fin 50257 → EReal) (hx : ∀ k, ∃ r : ℝ, x k = (r : EReal)) (l : BitVec 32)
    (k : Fin 50257) (hl : l = BitVec.ofNat 32 k.val) : nllMasked x l = nllTaken x k := by
  subst hl
  unfold nllMasked nllTaken
  rw [masked_sum (fun j => x j - rowMax x) k]
  obtain ⟨r, hr⟩ := hx k
  obtain ⟨M, hM⟩ := rowMax_real x hx
  have ha : x k - rowMax x = ((r - M : ℝ) : EReal) := by rw [hr, hM, EReal.coe_sub]
  rw [ha]
  rw [EReal.neg_sub (Or.inl (EReal.coe_ne_bot _)) (Or.inl (EReal.coe_ne_top _))]
  rw [sub_eq_add_neg, add_comm]

end Cert.NllSpec

end
-- ==== Proof.KernelPay.lean ====
/-
  What the kernel body stores, read one block row at a time.

  The body loads a block of 32 rows of logits, the 32 labels of those rows as a column, and the row of column
  numbers 0 … 50256. For block row `r` it stores `log (∑_k exp (x r k - M r)) - ∑_k (if k = label r then x r k - M r else 0)`,
  where `M r` is the maximum of row `r`. This file reads each stage of that payload at row `r` (the two column
  casts, the two broadcasts, the three reductions along the row, the comparison under the select) and concludes that
  the stored entry is `Cert.NllSpec.nllMasked` of row `r` and label `r`.
-/
import proofs.«430237_j7782480740624_3_alg».proof.Proof.Gen.KernelIdeal.Skeleton
import proofs.«430237_j7782480740624_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen Cert.NllSpec

/-- A vector of 32 entries kept as a 32 × 1 column reads, at (r, 0), the vector at r. -/
theorem col_apply {α : Type} (v : S32.Idx → α) (r : Fin 32) :
    shapeCast S32x1 v shapeCasts_S32_S32x1 (ix2 r 0) = v (ix1 r) := by
  refine shapeCast_apply v shapeCasts_S32_S32x1 (ix2 r 0) (ix1 r) ?_
  rewrite [Shape.rowMajor_val_two, Shape.rowMajor_val_one]
  show r.val = r.val * 1 + 0
  omega

/-- A 32 × 1 column broadcast along the rows reads, at (r, k), the column at (r, 0). -/
theorem bcol_apply {α : Type} (v : S32x1.Idx → α) (r : Fin 32) (k : Fin 50257) :
    broadcastTo S32x50257 v broadcasts_S32x1_S32x50257 (ix2 r k) = v (ix2 r 0) := by
  refine broadcastTo_apply v broadcasts_S32x1_S32x50257 (ix2 r k) (ix2 r 0) ?_
  intro a
  match a with
  | ⟨0, _⟩ => rfl
  | ⟨1, _⟩ => rfl

/-- A 1 × 50257 row broadcast down the rows reads, at (r, k), the row at (0, k). -/
theorem brow_apply {α : Type} (v : S1x50257.Idx → α) (r : Fin 32) (k : Fin 50257) :
    broadcastTo S32x50257 v broadcasts_S1x50257_S32x50257 (ix2 r k) = v (ix2 0 k) := by
  refine broadcastTo_apply v broadcasts_S1x50257_S32x50257 (ix2 r k) (ix2 0 k) ?_
  intro a
  match a with
  | ⟨0, _⟩ => rfl
  | ⟨1, _⟩ => rfl

/-- The logarithm of a vector, entry by entry. -/
theorem log_apply {s : Shape} (v : FVec Ideal s .f32) (i : s.Idx) : log v i = Ideal.log (v i) := rfl

/-- The exponential of a vector, entry by entry. -/
theorem exp_apply {s : Shape} (v : FVec Ideal s .f32) (i : s.Idx) : exp v i = Ideal.exp (v i) := rfl

/-- The index a reduction along the row inserts column `k` into is (r, k). -/
theorem lift_row (r : Fin 32) (k : Fin 50257) :
    (reduces_S32x50257_S32).lift (ix1 r) k = (ix2 r k : S32x50257.Idx) :=
  funext fun a => Fin.ext (by match a with | ⟨0, _⟩ => rfl | ⟨1, _⟩ => rfl)

/-- The block's rows, each less its maximum. -/
def shifted (x0 : Vec Ideal S32x50257 .f32) : FVec Ideal S32x50257 .f32 :=
  subf x0 (broadcastTo S32x50257
    (shapeCast S32x1 (multiReduction (F := Ideal) .maximumf [1] S32 x0 0xFF800000#32 reduces_S32x50257_S32 (.inl rfl) rfl)
      shapeCasts_S32_S32x1) broadcasts_S32x1_S32x50257)

/-- A sum along the rows of a 32 × 50257 block, at row `r`: the sum over the columns of the entries of that row. -/
theorem rowSum_apply (src : FVec Ideal S32x50257 .f32) (r : Fin 32) :
    multiReduction (F := Ideal) .add [1] S32 src 0x00000000#32 reduces_S32x50257_S32 (.inl rfl) rfl (ix1 r)
      = ∑ k : Fin 50257, src (ix2 r k) :=
  (Ideal.multiReduction_add_single src 0x00000000#32 reduces_S32x50257_S32 (.inl rfl) rfl (ix1 r)).trans
    (Finset.sum_congr rfl fun k _ => congrArg src (lift_row r k))

/-- The maximum along row `r` of the block is the row's `rowMax`. -/
theorem blockMax_apply (x0 : Vec Ideal S32x50257 .f32) (r : Fin 32) :
    multiReduction (F := Ideal) .maximumf [1] S32 x0 0xFF800000#32 reduces_S32x50257_S32 (.inl rfl) rfl (ix1 r)
      = rowMax (fun k => x0 (ix2 r k)) := by
  refine (Ideal.multiReduction_maximumf_single x0 _ _ _ _ (ix1 r)).trans ?_
  refine (Finset.fold_congr (g := fun k : Fin 50257 => x0 (ix2 r k)) fun k _ => congrArg x0 (lift_row r k)).trans ?_
  rfl

/-- Entry (r, k) of the shifted block. -/
theorem shifted_apply (x0 : Vec Ideal S32x50257 .f32) (r : Fin 32) (k : Fin 50257) :
    shifted x0 (ix2 r k) = x0 (ix2 r k) - rowMax (fun j => x0 (ix2 r j)) := by
  unfold shifted
  show x0 (ix2 r k) - _ = _
  rw [bcol_apply, col_apply, blockMax_apply]

/-- The exponentials of the shifted block summed along each row. -/
def sumExpVec (x0 : Vec Ideal S32x50257 .f32) : FVec Ideal S32 .f32 :=
  multiReduction (F := Ideal) .add [1] S32 (exp (shifted x0)) 0x00000000#32 reduces_S32x50257_S32 (.inl rfl) rfl

/-- The shifted block, kept where the column number equals the row's label and zero elsewhere, summed along each row. -/
def maskedVec (x0 : Vec Ideal S32x50257 .f32) (x1 : Vec Ideal S32x1 .i32) (x2 : Vec Ideal S1x50257 .i32) : FVec Ideal S32 .f32 :=
  multiReduction (F := Ideal) .add [1] S32
    (select
      (cmpi .eq (broadcastTo S32x50257 (shapeCast S1x50257 x2 shapeCasts_S1x50257_S1x50257) broadcasts_S1x50257_S32x50257)
        (broadcastTo S32x50257 (shapeCast S32x1 x1 shapeCasts_S32x1_S32x1) broadcasts_S32x1_S32x50257))
      (shifted x0) (broadcast S32x50257 (Scalar.ofBits (F := Ideal) .f32 0x00000000#32)))
    0x00000000#32 reduces_S32x50257_S32 (.inl rfl) rfl

/-- The body's payload over those two vectors: the log of the first less the second, each kept as a column. -/
theorem pay_eq (x0 : Vec Ideal S32x50257 .f32) (x1 : Vec Ideal S32x1 .i32) (x2 : Vec Ideal S1x50257 .i32) :
    k0_pay1 (F := Ideal) x0 x1 x2
      = subf (log (shapeCast S32x1 (sumExpVec x0) shapeCasts_S32_S32x1))
          (shapeCast S32x1 (maskedVec x0 x1 x2) shapeCasts_S32_S32x1) := rfl

/-- The sum of the exponentials along row `r`. -/
theorem sumExpVec_apply (x0 : Vec Ideal S32x50257 .f32) (r : Fin 32) :
    sumExpVec x0 (ix1 r) = sumExp (fun k => x0 (ix2 r k)) := by
  unfold sumExpVec
  refine (rowSum_apply (exp (shifted x0)) r).trans ?_
  unfold sumExp
  refine Finset.sum_congr rfl fun k _ => ?_
  refine (exp_apply _ _).trans ?_
  rw [shifted_apply]

/-- One entry under the mask: the comparison of the column number with the label chooses the shifted entry or zero. -/
theorem masked_entry (a l : BitVec 32) (v : EReal) :
    Scalar.select (IntOp.cmpi .eq a l) v (Ideal.ofBits .f32 0x00000000#32)
      = if a = l then v else Ideal.ofBits .f32 0x00000000#32 := by
  by_cases h : a = l
  · subst h
    simp [Scalar.select, IntOp.cmpi]
  · have hb : (a == l) = false := beq_eq_false_iff_ne.2 h
    rw [if_neg h]
    simp [Scalar.select, IntOp.cmpi, hb]

/-- The shifted row summed under the mask "column number = label". -/
theorem maskedVec_apply (x0 : Vec Ideal S32x50257 .f32) (x1 : Vec Ideal S32x1 .i32) (x2 : Vec Ideal S1x50257 .i32)
    (hcol : ∀ k : Fin 50257, x2 (ix2 0 k) = BitVec.ofNat 32 k.val) (r : Fin 32) :
    maskedVec x0 x1 x2 (ix1 r)
      = ∑ k : Fin 50257, (if BitVec.ofNat 32 k.val = x1 (ix2 r 0)
          then x0 (ix2 r k) - rowMax (fun j => x0 (ix2 r j)) else Ideal.ofBits .f32 0x00000000#32) := by
  unfold maskedVec
  refine (rowSum_apply _ r).trans ?_
  refine Finset.sum_congr rfl fun k _ => ?_
  show Scalar.select (IntOp.cmpi .eq
        (broadcastTo S32x50257 (shapeCast S1x50257 x2 shapeCasts_S1x50257_S1x50257) broadcasts_S1x50257_S32x50257 (ix2 r k))
        (broadcastTo S32x50257 (shapeCast S32x1 x1 shapeCasts_S32x1_S32x1) broadcasts_S32x1_S32x50257 (ix2 r k)))
      (shifted x0 (ix2 r k)) (Ideal.ofBits .f32 0x00000000#32) = _
  rw [brow_apply, bcol_apply, shapeCast_self, shapeCast_self, hcol k, shifted_apply, masked_entry]

/-- THE PAYLOAD AT A ROW: the entry the body stores for block row `r` is the masked form of the loss of row `r` at
    label `r`, given that the third operand holds the column numbers. -/
theorem pay_apply (x0 : Vec Ideal S32x50257 .f32) (x1 : Vec Ideal S32x1 .i32) (x2 : Vec Ideal S1x50257 .i32)
    (hcol : ∀ k : Fin 50257, x2 (ix2 0 k) = BitVec.ofNat 32 k.val) (r : Fin 32) :
    k0_pay1 (F := Ideal) x0 x1 x2 (ix2 r 0) = nllMasked (fun k => x0 (ix2 r k)) (x1 (ix2 r 0)) := by
  refine (congrFun (pay_eq x0 x1 x2) (ix2 r 0)).trans ?_
  refine (subf_apply _ _ _).trans ?_
  unfold nllMasked
  refine congrArg₂ (· - ·) ?_ ?_
  · refine (log_apply _ _).trans ?_
    rw [col_apply, sumExpVec_apply]
  · rw [col_apply, maskedVec_apply x0 x1 x2 hcol r]

end Cert.KernelIdeal.PayValue

end
-- ==== Proof.KernelArr.lean ====
/-
  From blocks to the array: what the pallas_call leaves in its result column.

  Grid point `t` (of 128) reads rows 32·t … 32·t + 31 of the logits and the same rows of the label column, and writes
  rows 32·t … 32·t + 31 of the 4096 × 1 result. Entry (r, 0) of what it writes is the masked loss of block row `r`
  (KernelPay), that is of row 32·t + r of the logits at label 32·t + r. So every written block is a block of ONE
  column, `nllCol`: entry (b, 0) is the masked loss of row `b` at label `b`. The 128 blocks cover the 4096 rows, so the
  result column after the run is `nllCol`. The label column the kernel reads is the label vector kept as a column, and
  its third operand is the row of column numbers 0 … 50256; both are written by host operations before the call.
-/
import proofs.«430237_j7782480740624_3_alg».proof.Proof.Gen.KernelIdeal.Frame
import proofs.«430237_j7782480740624_3_alg».proof.Proof.KernelPay
import Idealize.ShloMosaic.Lib.Pipeline.Value
import Idealize.ShloMosaic.Lib.StableHlo.Run
import Idealize.ShloMosaic.Lib.IdealHost

set_option maxRecDepth 16384

noncomputable section

namespace Cert.KernelIdeal.ArrValue

open Idealize.ShloMosaic Idealize.ShloMosaic.TcCoe Idealize.ShloMosaic.ValueIdx Idealize.SL.Sem
open Cert.KernelIdeal Cert.KernelIdeal.Gen Cert.NllSpec Cert.KernelIdeal.PayValue
open Idealize.ShloMosaic.Pipeline (Dat)

variable (m : (ℓ : Loc nD τ sig) → Buf (Elt Ideal) ℓ)

theorem zeroOffsets : (![0, 0] : Fin 2 → Nat) = fun _ => 0 := funext fun a => by fin_cases a <;> rfl

/-- The loss column: entry (b, 0) is the masked loss of row `b` of the logits at the label in row `b` of the label column. -/
def nllCol (A0 : S4096x50257.Idx → EReal) (L : S4096x1.Idx → BitVec 32) : S4096x1.Idx → EReal :=
  fun i => nllMasked (fun k => A0 (ix2 (i 0) k)) (L (ix2 (i 0) 0))

/-! ## The two arrays host operations write before the call -/

/-- The label column as the call finds it: the label vector kept as a column. -/
theorem labelCol_eq (c : Dev nD) :
    (V m c main_v0 : S4096x1.Idx → BitVec 32)
      = shapeCast S4096x1 (m ((c : Thread nD τ).loc main_arg2)) shapeCasts_S4096_S4096x1 := by
  show StableHlo.after hostOps0 (fun b => m (c, b)) (Proc.devRef .tc main_v0) = _
  after_results
  rfl

/-- The third operand as the call finds it: the column numbers 0 … 50256 kept as a row. -/
theorem colNumbers_eq (c : Dev nD) :
    (V m c main_v2 : S1x50257.Idx → BitVec 32)
      = shapeCast S1x50257 (iotaInDim S50257 32 0) shapeCasts_S50257_S1x50257 := by
  show StableHlo.after hostOps0 (fun b => m (c, b)) (Proc.devRef .tc main_v2) = _
  after_results
  rfl

/-- Entry (0, k) of the row of column numbers is `k`. -/
theorem colNumbers_apply (k : Fin 50257) :
    shapeCast S1x50257 (iotaInDim S50257 32 0) shapeCasts_S50257_S1x50257 (ix2 0 k) = BitVec.ofNat 32 k.val := by
  refine (shapeCast_apply (iotaInDim S50257 32 0) shapeCasts_S50257_S1x50257 (ix2 0 k) (ix1 k) ?_).trans rfl
  rewrite [Shape.rowMajor_val_two, Shape.rowMajor_val_one]
  show k.val = 0 * 50257 + k.val
  omega

/-- Entry (b, 0) of a vector of 4096 entries kept as a column is its entry `b`. -/
theorem labelCol_apply (L : S4096.Idx → BitVec 32) (b : Fin 4096) :
    shapeCast S4096x1 L shapeCasts_S4096_S4096x1 (ix2 b 0) = L (ix1 b) := by
  refine shapeCast_apply L shapeCasts_S4096_S4096x1 (ix2 b 0) (ix1 b) ?_
  rewrite [Shape.rowMajor_val_two, Shape.rowMajor_val_one]
  show b.val = b.val * 1 + 0
  omega

/-! ## The block indices over the grid -/

/-- The printed index maps, decided over the 128 points: the logits and the label column move with the result
    column, one block of 32 rows per point; the row of column numbers stays. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 127 ∧ win0_3.index t (1 : Fin 2) = 0 :=
  (by decide +kernel : ∀ t : Fin grid0.N, _)

/-- Every block of 32 rows of the result column is some point's. -/
theorem idx_onto : ∀ q : Fin 128, ∃ t : Fin cfg0.N, win0_3.index t = ![q.val, 0] :=
  (by decide +kernel : ∀ q : Fin 128, ∃ t : Fin grid0.N, win0_3.index t = ![q.val, 0])

/-! ## What a point writes back -/

/-- WHAT POINT `t` WRITES BACK is block `t` of the loss column of the arrays as the call finds them. -/
theorem flushed_eq (c : Dev nD) (t : Fin cfg0.N) :
    (dats m 0 c).flushed 3 t
      = ((cfg0.win 3).blk t).view.read (Elt Ideal) (nllCol (V m c main_arg0) (V m c main_v0)) := by
  show (cfg0.win 3).cut (grid0.coords t) ((dats m 0 c).after 3 t) = _
  rw [after0_3]
  unfold out0_3
  rw [View.canon_unit_zero zeroOffsets]
  simp only [View.ld_unit_zero (S := S32x50257) zeroOffsets, View.ld_unit_zero (S := S32x1) zeroOffsets,
    View.ld_unit_zero (S := S1x50257) zeroOffsets]
  obtain ⟨e00, e01, e10, e11, e20, e21, e30, e31⟩ := idx_facts t
  funext j
  obtain ⟨r, rfl⟩ : ∃ r : Fin 32, j = ix2 r 0 :=
    ⟨j 0, funext fun a => Fin.ext (by
      match a with
      | ⟨0, _⟩ => rfl
      | ⟨1, _⟩ => show (j 1).val = 0; have h1 : (j 1).val < 1 := (j 1).isLt; omega)⟩
  -- the third operand's block is the row of column numbers
  have hcol : ∀ k : Fin 50257, iblk m c 2 t (ix2 0 k) = BitVec.ofNat 32 k.val := by
    intro k
    show V m c main_v2 (((cfg0.win 2).blk t).view.emb (ix2 0 k)) = _
    have hemb : ((cfg0.win 2).blk t).view.emb (ix2 0 k) = (ix2 0 k : S1x50257.Idx) := by
      funext a; apply Fin.ext
      match a with
      | ⟨0, _⟩ => show win0_2.index t (0 : Fin 2) * 1 + 1 * 0 = 0; omega
      | ⟨1, _⟩ => show win0_2.index t (1 : Fin 2) * 50257 + 1 * k.val = k.val; omega
    rw [hemb, colNumbers_eq]
    exact colNumbers_apply k
  refine (pay_apply (iblk m c 0 t) (iblk m c 1 t) (iblk m c 2 t) hcol r).trans ?_
  show nllMasked (fun k => V m c main_arg0 (((cfg0.win 0).blk t).view.emb (ix2 r k)))
      (V m c main_v0 (((cfg0.win 1).blk t).view.emb (ix2 r 0)))
    = nllMasked (fun k => V m c main_arg0 (ix2 ((((cfg0.win 3).blk t).view.emb (ix2 r 0)) 0) k))
      (V m c main_v0 (ix2 ((((cfg0.win 3).blk t).view.emb (ix2 r 0)) 0) 0))
  have h0 : ∀ k : Fin 50257, ((cfg0.win 0).blk t).view.emb (ix2 r k)
      = (ix2 ((((cfg0.win 3).blk t).view.emb (ix2 r 0)) 0) k : S4096x50257.Idx) := by
    intro k
    funext a; apply Fin.ext
    match a with
    | ⟨0, _⟩ => show win0_0.index t (0 : Fin 2) * 32 + 1 * r.val = win0_3.index t (0 : Fin 2) * 32 + 1 * r.val; omega
    | ⟨1, _⟩ => show win0_0.index t (1 : Fin 2) * 50257 + 1 * k.val = k.val; omega
  have h1 : ((cfg0.win 1).blk t).view.emb (ix2 r 0)
      = (ix2 ((((cfg0.win 3).blk t).view.emb (ix2 r 0)) 0) 0 : S4096x1.Idx) := by
    funext a; apply Fin.ext
    match a with
    | ⟨0, _⟩ => show win0_1.index t (0 : Fin 2) * 32 + 1 * r.val = win0_3.index t (0 : Fin 2) * 32 + 1 * r.val; omega
    | ⟨1, _⟩ => show win0_1.index t (1 : Fin 2) * 1 + 1 * 0 = 0; omega
  rw [h1]
  exact congrArg (fun f => nllMasked f _) (funext fun k => congrArg (V m c main_arg0) (h0 k))

/-! ## The cover -/

/-- An index of the result column is in point `t`'s block iff each coordinate is in the block's range on its axis. -/
theorem mem_blk (t : Fin cfg0.N) (i : S4096x1.Idx) :
    i ∈ ((cfg0.win 3).blk t).view.set ↔ ∀ a : Fin 2, win0_3.index t a * S32x1.size a ≤ (i a).val
      ∧ (i a).val < win0_3.index t a * S32x1.size a + S32x1.size a := by
  show i ∈ ((View.whole main_v3).slice (win0_3.rect t)).set ↔ _
  rw [View.set_slice_whole, Rect.mem_set_unit]
  exact Iff.rfl

/-- Every row of the result column is written: row `b` by point `b / 32`. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ := idx_onto ⟨(i 0).val / 32, by omega⟩
  have q0 : win0_3.index t (0 : Fin 2) = (i 0).val / 32 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 32 ≤ (i 0).val ∧ (i 0).val < win0_3.index t (0 : Fin 2) * 32 + 32
    omega
  | ⟨1, _⟩ =>
    show win0_3.index t (1 : Fin 2) * 1 ≤ (i 1).val ∧ (i 1).val < win0_3.index t (1 : Fin 2) * 1 + 1
    omega

/-! ## The array after the run -/

/-- THE RESULT COLUMN after the run is the loss column of the logits and of the label vector kept as a column. -/
theorem final (c : Dev nD) :
    (dats m 0 c).arrAt 3 cfg0.N
      = nllCol (m ((c : Thread nD τ).loc main_arg0))
          (shapeCast S4096x1 (m ((c : Thread nD τ).loc main_arg2)) shapeCasts_S4096_S4096x1) := by
  rw [(dats m 0 c).arrAt_eq_of_cover 3 (nllCol (V m c main_arg0) (V m c main_v0)) (fun t _ => flushed_eq m c t) covered,
    V_main_arg0, labelCol_eq]

end Cert.KernelIdeal.ArrValue

end
-- ==== Proof.KernelTail.lean ====
/-
  After the pallas_call: the weighted mean.

  The host operations after the call turn the 4096 × 1 loss column into a vector, look up one weight per sample in the
  8 × 50257 table at (attribute, label) (a negative attribute or label counted from the end, as jnp indexing does),
  multiply the two vectors entry by entry, sum the 4096 products and divide by 4096. This file names that function of
  the weight table, the labels, the attributes and a loss vector (`weightedMean`), reads the tail's result as
  `weightedMean` of the call's result column (KernelArr's `final`), and restates the kernel's run with it.
-/
import proofs.«430237_j7782480740624_3_alg».proof.Proof.Gen.KernelIdeal.Frame
import proofs.«430237_j7782480740624_3_alg».proof.Proof.KernelArr
import Idealize.ShloMosaic.Lib.Pipeline.FrameSuffix
import Idealize.ShloMosaic.Lib.StableHlo.Run

set_option maxRecDepth 16384

noncomputable section

namespace Cert.KernelIdeal.TailValue

open Idealize.ShloMosaic Idealize.ShloMosaic.TcCoe Idealize.ShloMosaic.ValueIdx Idealize.SL.Sem
open Cert.KernelIdeal Cert.KernelIdeal.Gen Cert.NllSpec Cert.KernelIdeal.ArrValue
open Idealize.ShloMosaic.Pipeline (Dat)

/-- The mean over the 4096 samples of weight × loss, the weight of sample `b` read from the table at
    (attribute b, label b), a negative index counted from the end of its axis. -/
def weightedMean (a1 : FVec Ideal S8x50257 .f32) (a2 a3 : IVec S4096 32) (N : FVec Ideal S4096 .f32) : FVec Ideal S_ .f32 :=
  Host.divf (F := Ideal)
    (Host.reduceAdd (F := Ideal)
      (mulf (F := Ideal)
        (Host.gather gather_S8x50257_S4096x2_S4096_n_01_n_n_01_1_11 a1
          (concatenate S4096x2 1
            [⟨S4096x1, broadcastInDim S4096x1 ![0] bcast_S4096_S4096x1_0
                (select (cmpi .slt a3 (broadcastInDim S4096 ![] bcast_S_S4096 (constantI S_ 32 0#32)))
                  (addi a3 (broadcastInDim S4096 ![] bcast_S_S4096 (constantI S_ 32 8#32))) a3)⟩,
             ⟨S4096x1, broadcastInDim S4096x1 ![0] bcast_S4096_S4096x1_0
                (select (cmpi .slt a2 (broadcastInDim S4096 ![] bcast_S_S4096 (constantI S_ 32 0#32)))
                  (addi a2 (broadcastInDim S4096 ![] bcast_S_S4096 (constantI S_ 32 50257#32))) a2)⟩]
            concatenates_S4096x1_S4096x1_S4096x2_d1))
        N)
      (constant (F := Ideal) S_ .f32 0x00000000#32) reducesTo_S4096_S_d0 h_S_)
    (constant (F := Ideal) S_ .f32 0x45800000#32)

variable (m : (ℓ : Loc nD τ sig) → Buf (Elt Ideal) ℓ) (ρ : Dev nD → PrngReg)

/-- The loss vector the tail multiplies the weights with: the call's result column read as a vector. -/
def lossVec (c : Dev nD) : FVec Ideal S4096 .f32 :=
  shapeCast S4096
    (nllCol (m ((c : Thread nD τ).loc main_arg0))
      (shapeCast S4096x1 (m ((c : Thread nD τ).loc main_arg2)) shapeCasts_S4096_S4096x1))
    shapeCasts_S4096x1_S4096

set_option maxHeartbeats 4000000 in
/-- THE TAIL'S RESULT: the weighted mean of the call's result column. -/
theorem tail_eq (c : Dev nD) :
    Pipeline.afterTail₀ cfgs (dats m) 0 (V0 m) [hostOps1] c main_v21
      = weightedMean (m ((c : Thread nD τ).loc main_arg1)) (m ((c : Thread nD τ).loc main_arg2))
          (m ((c : Thread nD τ).loc main_arg3)) (lossVec m c) := by
  unfold Pipeline.afterTail₀
  show StableHlo.after hostOps1 (Pipeline.withArrays spec0 c (V0 m c) (fun w => (dats m 0 c).arrAt w cfg0.N))
      (Proc.devRef .tc main_v21) = _
  -- what the tail starts from: the three arguments it reads as launched, the call's result column as `final` has it
  have h1 := (Pipeline.withArrays_of_ne spec0 c (V0 m c) (fun w => (dats m 0 c).arrAt w cfg0.N) main_arg1
    (by exact (by decide : ∀ w, Pipeline.arrRef spec0 w ≠ main_arg1))).trans (V_main_arg1 m c)
  have h2 := (Pipeline.withArrays_of_ne spec0 c (V0 m c) (fun w => (dats m 0 c).arrAt w cfg0.N) main_arg2
    (by exact (by decide : ∀ w, Pipeline.arrRef spec0 w ≠ main_arg2))).trans (V_main_arg2 m c)
  have h3 := (Pipeline.withArrays_of_ne spec0 c (V0 m c) (fun w => (dats m 0 c).arrAt w cfg0.N) main_arg3
    (by exact (by decide : ∀ w, Pipeline.arrRef spec0 w ≠ main_arg3))).trans (V_main_arg3 m c)
  have hv : Pipeline.withArrays spec0 c (V0 m c) (fun w => (dats m 0 c).arrAt w cfg0.N) (Proc.devRef .tc main_v3)
      = nllCol (m ((c : Thread nD τ).loc main_arg0))
          (shapeCast S4096x1 (m ((c : Thread nD τ).loc main_arg2)) shapeCasts_S4096_S4096x1) :=
    (Pipeline.withArrays_arr spec0 launch0.win.arr_inj c (V0 m c) (fun w => (dats m 0 c).arrAt w cfg0.N) 3).trans (final m c)
  generalize Pipeline.withArrays spec0 c (V0 m c) (fun w => (dats m 0 c).arrAt w cfg0.N) = W at h1 h2 h3 hv ⊢
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1, h2, h3, hv]
  rfl

/-- The kernel's run with its result named: the weighted mean of the loss column, the arguments unchanged. -/
theorem run : θ_run defs (onTc (τ := τ) (main (F := Ideal))) ⟨m, fun _ => 0, ρ⟩ fun r => ∀ c : Dev nD,
      r.2.mem ((c.tc : Thread nD τ).loc main_v21)
        = weightedMean (m ((c : Thread nD τ).loc main_arg1)) (m ((c : Thread nD τ).loc main_arg2))
            (m ((c : Thread nD τ).loc main_arg3)) (lossVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.TailValue

end
-- ==== Proof.RefStages.lean ====
/-
  The reference's loss vector, read at one sample.

  The reference forms the log-softmax of the logits (each row less its maximum, less the log of the sum of the
  exponentials of that shifted row), takes from row `b` the entry at column `label b` (a negative label counted from
  the end, an out-of-range one replaced by a fill value) and negates it. For a label that is the word of a column
  number `k < 50257` the label is not negative, it is in range, and the take reads column `k`: the entry of the loss
  vector at sample `b` is `Cert.NllSpec.nllTaken` of row `b` at column `k`.
-/
import proofs.«430237_j7782480740624_3_alg».proof.Proof.RefRead
import proofs.«430237_j7782480740624_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.Stages

open Idealize.ShloMosaic Idealize.ShloMosaic.ValueIdx Cert.ReferenceIdeal Cert.ReferenceIdeal.Gen Cert.ReferenceIdeal.Read
open Cert.NllSpec

/-! ## The log-softmax of row `b` -/

/-- Dropping the column axis of the logits leaves the sample axis: the shape fact whose `lift` puts a column back. -/
theorem red_cols : S4096x50257.Reduces [1] S4096 := by decide

/-- The maximum over the columns, at sample `b`, is the row's maximum folded from `-∞`. -/
theorem rowmax_stage (x0 : (⟨S4096x50257, .f32⟩ : BufTy).Contents (Elt Ideal)) (b : Fin 4096) :
    val_main_call0_v0 (F := Ideal) x0 (ix1 b) = rowMax (fun j => x0 (ix2 b j)) := by
  unfold val_main_call0_v0
  refine (Host.reduce_eq_fold_single (FloatOps.maximumf (F := Ideal) (φ := .f32)) x0 (val_main_call0_cst (F := Ideal))
    reducesTo_S4096x50257_S4096_d1 red_cols h_S_ (ix1 b)).trans ?_
  unfold rowMax
  exact Finset.fold_congr (fun k _ => congrArg x0
    (funext fun a => Fin.ext (by match a with | ⟨0, _⟩ => rfl | ⟨1, _⟩ => rfl)))

/-- Taking the maximum once more with `-∞` changes nothing. -/
theorem max_stage (x0 : (⟨S4096x50257, .f32⟩ : BufTy).Contents (Elt Ideal)) (b : Fin 4096) :
    val_main_call0_v2 (F := Ideal) x0 (ix1 b) = rowMax (fun j => x0 (ix2 b j)) := by
  rw [val_main_call0_v2_apply, val_main_call0_v1_apply, val_main_call0_cst_0_apply, rowmax_stage]
  exact max_eq_right (init_le_rowMax _)

/-- The maximum laid along the row reads, at every column, the row's maximum. -/
theorem maxrow_stage (x0 : (⟨S4096x50257, .f32⟩ : BufTy).Contents (Elt Ideal)) (b : Fin 4096) (j : Fin 50257) :
    val_main_call0_v4 (F := Ideal) x0 (ix2 b j) = rowMax (fun j => x0 (ix2 b j)) := by
  rw [val_main_call0_v4_apply, val_main_call0_v3_apply]
  have hi : idx_main_call0_v3 (idx_main_call0_v4 (ix2 b j)) = ix1 b :=
    funext fun a => Fin.ext (by match a with | ⟨0, _⟩ => rfl)
  exact (congrArg (val_main_call0_v2 (F := Ideal) x0) hi).trans (max_stage x0 b)

/-- The shifted entry: the logit less its row's maximum. -/
theorem shift_stage (x0 : (⟨S4096x50257, .f32⟩ : BufTy).Contents (Elt Ideal)) (b : Fin 4096) (j : Fin 50257) :
    val_main_call0_v5 (F := Ideal) x0 (ix2 b j) = x0 (ix2 b j) - rowMax (fun j => x0 (ix2 b j)) := by
  rw [val_main_call0_v5_apply, maxrow_stage]
  rfl

/-- Its exponential. -/
theorem exp_stage (x0 : (⟨S4096x50257, .f32⟩ : BufTy).Contents (Elt Ideal)) (b : Fin 4096) (j : Fin 50257) :
    val_main_call0_v6 (F := Ideal) x0 (ix2 b j) = Ideal.exp (x0 (ix2 b j) - rowMax (fun j => x0 (ix2 b j))) := by
  rw [val_main_call0_v6_apply, shift_stage]
  rfl

/-- The sum over the columns, from zero, is the sum of the exponentials of the shifted row. -/
theorem sum_stage (x0 : (⟨S4096x50257, .f32⟩ : BufTy).Contents (Elt Ideal)) (b : Fin 4096) :
    val_main_call0_v7 (F := Ideal) x0 (ix1 b) = sumExp (fun j => x0 (ix2 b j)) := by
  rw [val_main_call0_v7_apply, val_main_call0_cst_1_apply]
  show Ideal.ofBits .f32 0x00000000#32 + _ = _
  rw [Ideal.ofBits_zero_f32, zero_add]
  unfold sumExp
  refine Finset.sum_congr rfl fun k _ => ?_
  have hi : idx_main_call0_v7 (ix1 b) k = ix2 b k :=
    funext fun a => Fin.ext (by match a with | ⟨0, _⟩ => rfl | ⟨1, _⟩ => rfl)
  exact (congrArg (val_main_call0_v6 (F := Ideal) x0) hi).trans (exp_stage x0 b k)

/-- The log of that sum laid along the row reads, at every column, the log of the row's sum. -/
theorem logrow_stage (x0 : (⟨S4096x50257, .f32⟩ : BufTy).Contents (Elt Ideal)) (b : Fin 4096) (j : Fin 50257) :
    val_main_call0_v10 (F := Ideal) x0 (ix2 b j) = Ideal.log (sumExp (fun j => x0 (ix2 b j))) := by
  rw [val_main_call0_v10_apply, val_main_call0_v9_apply, val_main_call0_v8_apply]
  have hi : idx_main_call0_v8 (idx_main_call0_v10 (ix2 b j)) = ix1 b :=
    funext fun a => Fin.ext (by match a with | ⟨0, _⟩ => rfl)
  rw [(congrArg (val_main_call0_v7 (F := Ideal) x0) hi).trans (sum_stage x0 b)]
  exact Ideal.hostUnary_log_def _

/-- The log-softmax entry: the shifted logit less the log of the row's sum. -/
theorem logsoftmax_stage (x0 : (⟨S4096x50257, .f32⟩ : BufTy).Contents (Elt Ideal)) (b : Fin 4096) (j : Fin 50257) :
    val_main_v0 (F := Ideal) x0 (ix2 b j)
      = (x0 (ix2 b j) - rowMax (fun j => x0 (ix2 b j))) - Ideal.log (sumExp (fun j => x0 (ix2 b j))) := by
  rw [val_main_v0_apply, shift_stage, logrow_stage]
  rfl

/-! ## The label of sample `b`, the word of a column number `k` -/

/-- A column number is its word's value. -/
theorem label_toNat (k : Fin 50257) : (BitVec.ofNat 32 k.val).toNat = k.val := by
  rw [BitVec.toNat_ofNat]
  exact Nat.mod_eq_of_lt (by have := k.isLt; omega)

/-- Such a word is not negative. -/
theorem label_not_neg (k : Fin 50257) : IntOp.cmpi .slt (BitVec.ofNat 32 k.val) 0#32 = 0#1 := by
  refine eq_zero_of_ne_one fun h => ?_
  have hlt := (StableHlo.Predicate.slt_iff_toNat (a := BitVec.ofNat 32 k.val) (b := 0#32)
    (by rw [label_toNat]; have := k.isLt; omega) (by decide)).1 h
  have h0 : (0#32 : BitVec 32).toNat = 0 := by decide
  rw [h0] at hlt
  exact Nat.not_lt_zero _ hlt

/-- It is at least zero … -/
theorem label_ge_zero (k : Fin 50257) : IntOp.cmpi .sge (BitVec.ofNat 32 k.val) 0#32 = 1#1 := by
  refine (StableHlo.Predicate.sge_iff_toNat (a := BitVec.ofNat 32 k.val) (b := 0#32)
    (by rw [label_toNat]; have := k.isLt; omega) (by decide)).2 ?_
  have h0 : (0#32 : BitVec 32).toNat = 0 := by decide
  rw [h0]
  exact Nat.zero_le _

/-- … and at most the last column. -/
theorem label_le_last (k : Fin 50257) : IntOp.cmpi .sle (BitVec.ofNat 32 k.val) 50256#32 = 1#1 := by
  refine (StableHlo.Predicate.sle_iff_toNat (a := BitVec.ofNat 32 k.val) (b := 50256#32)
    (by rw [label_toNat]; have := k.isLt; omega) (by decide)).2 ?_
  have h0 : (50256#32 : BitVec 32).toNat = 50256 := by decide
  rw [h0, label_toNat]
  have := k.isLt
  omega

/-- The labels as a column read, at row `b`, sample `b`'s label. -/
theorem col_stage (x2 : (⟨S4096, .i32⟩ : BufTy).Contents (Elt Ideal)) (b : Fin 4096) :
    val_main_v1 (F := Ideal) x2 (ix2 b (0 : Fin 1)) = x2 (ix1 b) := by
  rw [val_main_v1_apply]
  exact congrArg x2 (funext fun a => Fin.ext (by match a with | ⟨0, _⟩ => rfl))

/-- A label that is not negative is not counted from the end: the wrapped index is the label itself. -/
theorem wrap_stage (x2 : (⟨S4096, .i32⟩ : BufTy).Contents (Elt Ideal)) (b : Fin 4096) (k : Fin 50257)
    (hk : x2 (ix1 b) = BitVec.ofNat 32 k.val) :
    val_main_call1_v4 (F := Ideal) x2 (ix2 b (0 : Fin 1)) = BitVec.ofNat 32 k.val := by
  rw [val_main_call1_v4_apply, val_main_call1_v1_apply, col_stage, hk, val_main_call1_v0_apply,
    val_main_call1_c_apply, label_not_neg, select_zero]

/-- The index array `[4096, 1, 1]` is the column `[4096, 1]` entry for entry. -/
theorem idx_reshape (b : Fin 4096) :
    idx_main_call1_v5 (ix3 b (0 : Fin 1) (0 : Fin 1)) = ix2 b (0 : Fin 1) := by
  funext a
  refine Fin.ext ?_
  match a with
  | ⟨0, _⟩ =>
    show ((b.val * 1 + 0) * 1 + 0) / 1 = b.val
    omega
  | ⟨1, _⟩ => rfl

/-- So the start index of sample `b` is the label. -/
theorem start_stage (x2 : (⟨S4096, .i32⟩ : BufTy).Contents (Elt Ideal)) (b : Fin 4096) (k : Fin 50257)
    (hk : x2 (ix1 b) = BitVec.ofNat 32 k.val) :
    val_main_call1_v5 (F := Ideal) x2 (ix3 b (0 : Fin 1) (0 : Fin 1)) = BitVec.ofNat 32 k.val := by
  rw [val_main_call1_v5_apply]
  exact (congrArg (val_main_call1_v4 (F := Ideal) x2) (idx_reshape b)).trans (wrap_stage x2 b k hk)

/-- The label is in bounds: both comparisons hold. -/
theorem inb_stage (x2 : (⟨S4096, .i32⟩ : BufTy).Contents (Elt Ideal)) (b : Fin 4096) (k : Fin 50257)
    (hk : x2 (ix1 b) = BitVec.ofNat 32 k.val) :
    val_main_call1_v11 (F := Ideal) x2 (ix3 b (0 : Fin 1) (0 : Fin 1)) = 1#1 := by
  rw [val_main_call1_v11_apply, val_main_call1_v7_apply, val_main_call1_v10_apply, start_stage x2 b k hk,
    val_main_call1_v6_apply, val_main_call1_c_2_apply, val_main_call1_v9_apply, val_main_call1_v8_apply,
    val_main_call1_c_1_apply, label_ge_zero, label_le_last]
  rfl

/-- Dropping the last, unit axis of the index array leaves the column. -/
theorem red_unit : S4096x1x1.Reduces [2] S4096x1 := by decide

/-- A fold over a one-point range is one application of the operation. -/
theorem fold_fin_one {β : Type} (op : β → β → β) [Std.Commutative op] [Std.Associative op] (init : β) (f : Fin 1 → β) :
    (Finset.univ : Finset (Fin 1)).fold op init f = op (f 0) init := by
  rw [Finset.univ_unique, Finset.fold_singleton]
  rfl

/-- The "and" over the unit axis is the one entry: the mask at sample `b` is set. -/
theorem mask_stage (x2 : (⟨S4096, .i32⟩ : BufTy).Contents (Elt Ideal)) (b : Fin 4096) (k : Fin 50257)
    (hk : x2 (ix1 b) = BitVec.ofNat 32 k.val) :
    val_main_call1_v12 (F := Ideal) x2 (ix2 b (0 : Fin 1)) = 1#1 := by
  unfold val_main_call1_v12
  refine (Host.reduce_eq_fold_single IntOp.andi (val_main_call1_v11 (F := Ideal) x2) (val_main_call1_c_3 (F := Ideal))
    reducesTo_S4096x1x1_S4096x1_d2 red_unit h_S_ (ix2 b (0 : Fin 1))).trans ?_
  refine (fold_fin_one IntOp.andi _ _).trans ?_
  have hi : red_unit.lift (ix2 b (0 : Fin 1)) (0 : Fin 1) = ix3 b (0 : Fin 1) (0 : Fin 1) :=
    funext fun a => Fin.ext (by match a with | ⟨0, _⟩ => rfl | ⟨1, _⟩ => rfl | ⟨2, _⟩ => rfl)
  show IntOp.andi (val_main_call1_v11 (F := Ideal) x2 (red_unit.lift (ix2 b (0 : Fin 1)) (0 : Fin 1))) 1#1 = 1#1
  rw [hi, inb_stage x2 b k hk]
  rfl

/-! ## The take along the row -/

/-- The take's dimension numbers: the sample axis batched, the column axis collapsed and indexed. -/
abbrev tk : GatherDims S4096x50257 S4096x1x1 S4096x1 := gather_S4096x50257_S4096x1x1_S4096x1_n_1_0_0_1_2_11

/-- On the sample axis the operand index of result `(b, 0)` is `b`: no start, the batching coordinate, no offset. -/
theorem take_row (idx : IVec S4096x1x1 32) (b : Fin 4096) :
    (tk.operandIdx (ix2 b (0 : Fin 1)) idx (0 : Fin 2)).val = b.val := by
  have hmem : (0 : Fin 2) ∈ tk.operandBatchingDims := List.mem_singleton.mpr rfl
  show tk.start (ix2 b (0 : Fin 1)) idx (0 : Fin 2) + tk.batchCoord (ix2 b (0 : Fin 1)) (0 : Fin 2)
    + tk.offCoord (ix2 b (0 : Fin 1)) (0 : Fin 2) = b.val
  rw [tk.start_batching _ idx _ hmem, tk.offCoord_eq_zero _ _ (fun h => ((tk.mem_sKept _).mp h).2 hmem),
    Nat.zero_add, Nat.add_zero]
  unfold GatherDims.batchCoord
  rw [dif_pos hmem]
  rfl

/-- On the column axis it is the start index of sample `b`, read signed and clamped into the row. -/
theorem take_col (idx : IVec S4096x1x1 32) (b : Fin 4096) :
    (tk.operandIdx (ix2 b (0 : Fin 1)) idx (1 : Fin 2)).val
      = min (idx (ix3 b (0 : Fin 1) (0 : Fin 1))).toInt.toNat 50256 := by
  have hsim : (1 : Fin 2) ∈ tk.startIndexMap := List.mem_singleton.mpr rfl
  have hnb : (1 : Fin 2) ∉ tk.operandBatchingDims := fun h => absurd (List.mem_singleton.mp h) (by decide)
  show tk.start (ix2 b (0 : Fin 1)) idx (1 : Fin 2) + tk.batchCoord (ix2 b (0 : Fin 1)) (1 : Fin 2)
    + tk.offCoord (ix2 b (0 : Fin 1)) (1 : Fin 2) = _
  rw [tk.batchCoord_eq_zero _ _ hnb,
    tk.offCoord_eq_zero _ _ (fun h => ((tk.mem_sKept _).mp h).1 (List.mem_singleton.mpr rfl)), Nat.add_zero]
  unfold GatherDims.start
  rw [dif_pos hsim]
  have hsi : tk.siIdx (ix2 b (0 : Fin 1)) ⟨List.idxOf (1 : Fin 2) tk.startIndexMap, List.idxOf_lt_length_iff.2 hsim⟩
      = ix3 b (0 : Fin 1) (0 : Fin 1) := by
    funext c
    refine Fin.ext ?_
    match c with
    | ⟨0, _⟩ => rfl
    | ⟨1, _⟩ => rfl
    | ⟨2, _⟩ => rfl
  rw [hsi]
  rfl

/-- With the label the word of column `k`, the take reads the log-softmax row at column `k`. -/
theorem take_stage (x0 : (⟨S4096x50257, .f32⟩ : BufTy).Contents (Elt Ideal)) (x2 : (⟨S4096, .i32⟩ : BufTy).Contents (Elt Ideal))
    (b : Fin 4096) (k : Fin 50257) (hk : x2 (ix1 b) = BitVec.ofNat 32 k.val) :
    val_main_call1_v13 (F := Ideal) x0 x2 (ix2 b (0 : Fin 1)) = val_main_v0 (F := Ideal) x0 (ix2 b k) := by
  unfold val_main_call1_v13 Host.gather
  refine congrArg (val_main_v0 (F := Ideal) x0) ?_
  funext a
  refine Fin.ext ?_
  match a with
  | ⟨0, _⟩ => exact take_row _ b
  | ⟨1, _⟩ =>
    refine (take_col _ b).trans ?_
    rw [start_stage x2 b k hk, StableHlo.Predicate.toInt_ofNat_small k.val (by have := k.isLt; omega)]
    show min ((k.val : Int)).toNat 50256 = k.val
    have := k.isLt
    omega

/-- The mask being set, the select keeps the taken entry. -/
theorem select_stage (x0 : (⟨S4096x50257, .f32⟩ : BufTy).Contents (Elt Ideal)) (x2 : (⟨S4096, .i32⟩ : BufTy).Contents (Elt Ideal))
    (b : Fin 4096) (k : Fin 50257) (hk : x2 (ix1 b) = BitVec.ofNat 32 k.val) :
    val_main_v2 (F := Ideal) x0 x2 (ix2 b (0 : Fin 1)) = val_main_v0 (F := Ideal) x0 (ix2 b k) := by
  rw [val_main_v2_apply, mask_stage x2 b k hk, select_one, take_stage x0 x2 b k hk]

/-- THE REFERENCE'S LOSS AT SAMPLE `b`, for a label that is the word of the column number `k`. -/
theorem nll_apply (x0 : (⟨S4096x50257, .f32⟩ : BufTy).Contents (Elt Ideal)) (x2 : (⟨S4096, .i32⟩ : BufTy).Contents (Elt Ideal))
    (b : Fin 4096) (k : Fin 50257) (hk : x2 (ix1 b) = BitVec.ofNat 32 k.val) :
    val_main_v4 (F := Ideal) x0 x2 (ix1 b) = nllTaken (fun j => x0 (ix2 b j)) k := by
  rw [val_main_v4_apply, val_main_v3_apply]
  have hi : idx_main_v3 (ix1 b) = ix2 b (0 : Fin 1) := by
    funext a
    refine Fin.ext ?_
    match a with
    | ⟨0, _⟩ => exact Nat.div_one _
    | ⟨1, _⟩ => rfl
  rw [(congrArg (val_main_v2 (F := Ideal) x0 x2) hi).trans (select_stage x0 x2 b k hk), logsoftmax_stage]
  rfl

end Cert.ReferenceIdeal.Stages

end
-- ==== Proof.PreDecode.lean ====
/-
  What the precondition says about the inputs, entry by entry.

  The precondition is the conjunction of three "for all entries" tests: every logit's absolute value is below +∞,
  every weight's is, and every label is at least 0 and below 50257. Read at one entry, the first says that the
  logit is a real number (an extended real whose absolute value is below ⊤ is neither ⊤ nor ⊥), and the third that
  the label's word is the 32-bit word of a column number below 50257.
-/
import proofs.«430237_j7782480740624_3_alg».proof.Pre_finite_inputs
import proofs.«430237_j7782480740624_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

/-- The result of a reduction over every axis has exactly one index. -/
local instance : Subsingleton S_.Idx := ⟨fun a b => funext fun d => d.elim0⟩

/-- The pattern 0x7F800000 (sign clear, exponent all ones, significand zero) denotes +∞. -/
theorem ofBits_inf : Ideal.ofBits .f32 0x7F800000#32 = (⊤ : EReal) := by
  simp [Ideal.ofBits, Ideal.ieee]

/-- An extended real whose absolute value max x (-x) is strictly below +∞ is a real number:
    at ⊤ the maximum is ⊤, at ⊥ it is -⊥ = ⊤, and ⊤ < ⊤ is false. -/
theorem real_of_abs_lt_top (x : EReal) (hx : Ideal.cmp .olt (max x (-x)) (⊤ : EReal) = 1#1) : ∃ r : ℝ, x = (r : EReal) := by
  simp only [Ideal.cmp, StableHlo.Predicate.ofBool_eq_one_iff, decide_eq_true_eq] at hx
  induction x using EReal.rec with
  | bot => simp at hx
  | coe r => exact ⟨r, rfl⟩
  | top => simp at hx

/-- A 32-bit word that is at least 0 and below 50257 as a signed integer has its sign bit clear, so its signed and
    unsigned readings agree, and it is the word of the number x.toNat < 50257. -/
theorem word_inRange (x : BitVec 32) (h0 : IntOp.cmpi .sge x 0#32 = 1#1) (h1 : IntOp.cmpi .slt x 50257#32 = 1#1) :
    ∃ k : Fin 50257, x = BitVec.ofNat 32 k.val := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  have hc := BitVec.toInt_eq_toNat_cond x
  have hl := x.isLt
  have hlt : x.toNat < 50257 := by split at hc <;> omega
  refine ⟨⟨x.toNat, hlt⟩, BitVec.eq_of_toNat_eq ?_⟩
  rw [BitVec.toNat_ofNat]
  exact (Nat.mod_eq_of_lt hl).symm

/-- Under the precondition every logit is a real number. -/
theorem logits_real (a0 : FVec Ideal S4096x50257 .f32) (a1 : FVec Ideal S8x50257 .f32) (a2 a3 : IVec S4096 32)
    (h : fn (F := Ideal) a0 a1 a2 a3 = fun _ => 1#1) (i : S4096x50257.Idx) :
    ∃ x : ℝ, a0 i = (x : EReal) := by
  -- The precondition at its one index is a conjunction of three "for all" tests; take the first.
  have h0 := congrFun h ValueIdx.ix0
  dsimp only [fn] at h0
  obtain ⟨h8, _⟩ := IntOp.andi_eq_one.1 h0
  obtain ⟨h3, _⟩ := IntOp.andi_eq_one.1 h8
  -- Read at entry i, it says |a0 i| < +∞.
  have hi := Host.reduce_andi_all _ _ _ _ _ h3 i
  have hi' : Ideal.cmp .olt (max (a0 i) (-(a0 i))) (Ideal.ofBits .f32 0x7F800000#32) = 1#1 := hi
  rw [ofBits_inf] at hi'
  exact real_of_abs_lt_top _ hi'

/-- Under the precondition every label is the word of a column number below 50257. -/
theorem label_inRange (a0 : FVec Ideal S4096x50257 .f32) (a1 : FVec Ideal S8x50257 .f32) (a2 a3 : IVec S4096 32)
    (h : fn (F := Ideal) a0 a1 a2 a3 = fun _ => 1#1) (b : S4096.Idx) :
    ∃ k : Fin 50257, a2 b = BitVec.ofNat 32 k.val := by
  -- The precondition at its one index is a conjunction of three "for all" tests; take the third.
  have h0 := congrFun h ValueIdx.ix0
  dsimp only [fn] at h0
  obtain ⟨_, h14⟩ := IntOp.andi_eq_one.1 h0
  -- Read at entry b, it says 0 ≤ a2 b and a2 b < 50257 as signed integers.
  have hb := Host.reduce_andi_all _ _ _ _ _ h14 b
  obtain ⟨hge, hlt⟩ := IntOp.andi_eq_one.1 hb
  exact word_inRange (a2 b) hge hlt

end Cert.PreDecode

end
-- ==== Proof.Bridge.lean ====
/-
  The two results are one function of the arguments.

  Both programs end by the same weighted mean of a loss vector (the weight looked up at (attribute, label), the
  4096 products summed and divided by 4096), so it is enough that their loss vectors agree. At sample `b` the kernel's
  entry is the masked form of the loss of row `b` at label `b` and the reference's is the taken form at the column
  the label names; under the precondition every logit is a real number and every label is the word of a column number
  below 50257, and there the two forms are equal (Spec's `nllMasked_eq_nllTaken`).
-/
import proofs.«430237_j7782480740624_3_alg».proof.Proof.KernelTail
import proofs.«430237_j7782480740624_3_alg».proof.Proof.RefStages
import proofs.«430237_j7782480740624_3_alg».proof.Proof.PreDecode

set_option maxRecDepth 16384

noncomputable section

namespace Cert.Bridge

open Idealize.ShloMosaic Idealize.ShloMosaic.ValueIdx Cert.NllSpec

/-- The kernel's loss vector is the reference's, under the precondition. -/
theorem lossVec_eq (a0 : FVec Ideal Cert.KernelIdeal.S4096x50257 .f32) (a1 : FVec Ideal Cert.KernelIdeal.S8x50257 .f32)
    (a2 a3 : IVec Cert.KernelIdeal.S4096 32)
    (hpre : Cert.Pre_finite_inputs.fn (F := Ideal) a0 a1 a2 a3 = fun _ => 1#1) :
    shapeCast Cert.KernelIdeal.S4096
        (Cert.KernelIdeal.ArrValue.nllCol a0
          (shapeCast Cert.KernelIdeal.S4096x1 a2 Cert.KernelIdeal.Facts₀.shapeCasts_S4096_S4096x1))
        Cert.KernelIdeal.Facts₀.shapeCasts_S4096x1_S4096
      = Cert.ReferenceIdeal.Read.val_main_v4 (F := Ideal) a0 a2 := by
  funext i
  obtain ⟨b, rfl⟩ : ∃ b : Fin 4096, i = ix1 b := ⟨i 0, eq_ix1 i⟩
  obtain ⟨k, hk⟩ := Cert.PreDecode.label_inRange a0 a1 a2 a3 hpre (ix1 b)
  rw [Cert.ReferenceIdeal.Stages.nll_apply a0 a2 b k hk]
  refine (shapeCast_apply _ Cert.KernelIdeal.Facts₀.shapeCasts_S4096x1_S4096 (ix1 b) (ix2 b 0) ?_).trans ?_
  · rewrite [Shape.rowMajor_val_two, Shape.rowMajor_val_one]
    show b.val * 1 + 0 = b.val
    omega
  · show nllMasked (fun j => a0 (ix2 b j))
        (shapeCast Cert.KernelIdeal.S4096x1 a2 Cert.KernelIdeal.Facts₀.shapeCasts_S4096_S4096x1 (ix2 b 0)) = _
    rw [Cert.KernelIdeal.ArrValue.labelCol_apply a2 b]
    exact nllMasked_eq_nllTaken _ (fun j => Cert.PreDecode.logits_real a0 a1 a2 a3 hpre (ix2 b j)) _ k hk

/-- THE TWO RESULTS: the kernel's weighted mean of its loss column is the reference's result stage. -/
theorem result_eq (a0 : FVec Ideal Cert.KernelIdeal.S4096x50257 .f32) (a1 : FVec Ideal Cert.KernelIdeal.S8x50257 .f32)
    (a2 a3 : IVec Cert.KernelIdeal.S4096 32)
    (hpre : Cert.Pre_finite_inputs.fn (F := Ideal) a0 a1 a2 a3 = fun _ => 1#1) :
    Cert.KernelIdeal.TailValue.weightedMean a1 a2 a3
        (shapeCast Cert.KernelIdeal.S4096
          (Cert.KernelIdeal.ArrValue.nllCol a0
            (shapeCast Cert.KernelIdeal.S4096x1 a2 Cert.KernelIdeal.Facts₀.shapeCasts_S4096_S4096x1))
          Cert.KernelIdeal.Facts₀.shapeCasts_S4096x1_S4096)
      = Cert.ReferenceIdeal.Read.val_main_v21 (F := Ideal) a0 a1 a2 a3 := by
  rw [lossVec_eq a0 a1 a2 a3 hpre]
  rfl

end Cert.Bridge

end
-- ==== Proof.lean ====
/-
  The weighted cross-entropy loss: a Pallas kernel against its jnp reference, equal over the extended reals.

  The kernel streams the 4096 × 50257 logits through one pallas_call, 32 rows a grid point, and for each row computes
  `log (∑_k exp (x k - M)) - ∑_k (if k = label then x k - M else 0)` with `M` the row's maximum; the host then
  multiplies each row's loss by the weight at (attribute, label), sums and divides by 4096. The reference takes the
  log-softmax of the logits, reads each row at its label, negates, and ends in the same weighted mean.
  Under the precondition (finite logits and weights; every label at least 0 and below 50257) the two losses of a row
  are equal: the mask keeps exactly the label's column, and the shifted label logit is a real number, so negating
  `(x label - M) - log S` gives `log S - (x label - M)`. Outside that label range the reference counts a negative
  label from the end and fills an out-of-range read, which the kernel's mask does not do: the claim is stated on the
  label range.
  The frames of the two kernel programs are the generated ones; the reference's frame is its run with the result
  dropped; `preserves` has no entry. The value claim joins the kernel's run (its result the weighted mean of the loss
  column: Proof/KernelPay, KernelArr, KernelTail) to the reference's run (its result evaluated to a stage in
  Proof/RefAfter and read entry by entry in Proof/RefStages) by Proof/Bridge, with the precondition read entry by
  entry in Proof/PreDecode.
-/
import proofs.«430237_j7782480740624_3_alg».proof.Defs
import proofs.«430237_j7782480740624_3_alg».proof.Proof.Gen.Kernel
import proofs.«430237_j7782480740624_3_alg».proof.Proof.Gen.Kernel.Skeleton
import proofs.«430237_j7782480740624_3_alg».proof.Proof.Gen.Kernel.Launch
import proofs.«430237_j7782480740624_3_alg».proof.Proof.Gen.Kernel.Points
import proofs.«430237_j7782480740624_3_alg».proof.Proof.Gen.Kernel.Frame
import proofs.«430237_j7782480740624_3_alg».proof.Proof.Gen.KernelIdeal
import proofs.«430237_j7782480740624_3_alg».proof.Proof.Gen.KernelIdeal.Skeleton
import proofs.«430237_j7782480740624_3_alg».proof.Proof.Gen.KernelIdeal.Launch
import proofs.«430237_j7782480740624_3_alg».proof.Proof.Gen.KernelIdeal.Points
import proofs.«430237_j7782480740624_3_alg».proof.Proof.Gen.KernelIdeal.Frame
import proofs.«430237_j7782480740624_3_alg».proof.Proof.Gen.ReferenceIdeal
import proofs.«430237_j7782480740624_3_alg».proof.Proof.Gen.Pre_finite_inputs
import proofs.«430237_j7782480740624_3_alg».proof.Proof.RefRun
import proofs.«430237_j7782480740624_3_alg».proof.Proof.RefRead
import proofs.«430237_j7782480740624_3_alg».proof.Proof.RefAfter
import proofs.«430237_j7782480740624_3_alg».proof.Proof.KernelTail
import proofs.«430237_j7782480740624_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments and satisfy the precondition, the kernel ends at the weighted mean of
    its loss column and the reference at its result stage, and the two are one value. -/
theorem algebraic : Cert.algebraic_KernelIdeal_ReferenceIdeal := by
  intro m ρ m' ρ' hpre hagree
  refine ⟨fun c => Cert.KernelIdeal.TailValue.weightedMean
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.KernelIdeal.TailValue.lossVec m c), Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.AfterValue.result_after (F := Ideal) (StableHlo.launchContents m' c)).trans ?_
  show Cert.ReferenceIdeal.Read.val_main_v21 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
  rw [(hagree c).1, (hagree c).2.1, (hagree c).2.2.1, (hagree c).2.2.2]
  exact (Cert.Bridge.result_eq _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
